-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1 : Shape := ⟨2, ![1024, 1]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S1024x1 .f32) (main_arg3 : FVec F S1024x1 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S65536x1024 : Shape := ⟨2, ![65536, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1, .f32⟩
  | .hbm, ⟨3, _⟩ => ⟨S1024x1, .f32⟩
  | .hbm, ⟨4, _⟩ => ⟨S1x1024, .f32⟩
  | .hbm, ⟨5, _⟩ => ⟨S1x1024, .f32⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1_S1x1024 : S1024x1.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1 : Shape := ⟨2, ![1024, 1]⟩
abbrev S65536x1 : Shape := ⟨2, ![65536, 1]⟩
abbrev S1024 : Shape := ⟨1, ![1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1, .f32⟩
  | .hbm, ⟨3, _⟩ => ⟨S1024x1, .f32⟩
  | .hbm, ⟨4, _⟩ => ⟨S65536x1, .f32⟩
  | .hbm, ⟨5, _⟩ => ⟨S65536x1024, .f32⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S65536x1_S65536x1024_0_1 : S65536x1.BroadcastsInDim S65536x1024 (![0, 1] : Fin 2 → Fin S65536x1024.rank)
  shapeCasts_S1024x1_S1024 : S1024x1.ShapeCasts S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x1024_S1024x1_S65536x1_1_0_0_1_n_n_wf : DotDims.WF S65536x1024 S1024x1 S65536x1 [1] [0] [0] [1] [] []

variable [Facts₀]

def dot_S65536x1024_S1024x1_S65536x1_1_0_0_1_n_n : DotDims S65536x1024 S1024x1 S65536x1 where
  lhsContracting := [1]
  rhsContracting := [0]
  lhsNonContracting := [0]
  rhsNonContracting := [1]
  lhsBatch := []
  rhsBatch := []
  wf := dot_S65536x1024_S1024x1_S65536x1_1_0_0_1_n_n_wf

class Facts : Prop extends Facts₀ where

variable [Facts]
-- ==== Proof.CrossSpec.lean ====
/-
  The cross layer as one function of its four arguments, and the two facts about it that need no program.

  For a batch of 65536 rows of width 1024, a weight column `w` and a bias column `b` (both 1024 × 1), the layer sends
  the pair of matrices `(xl, x0)` to

      out[r, j] = x0[r, j] · (Σ_k xl[r, k] · w[k, 0]) + b[j, 0] + xl[r, j]

  over the extended reals. The row's scalar `Σ_k xl[r, k] · w[k, 0]` is the same whether it is taken as one matrix
  product with the column `w` or as a sum along the lanes of the row `xl[r, ·]` multiplied entrywise by `w` laid out as
  a row: both are the one finite sum, and no law beyond the definition of a finite sum is used, so nothing here asks
  the entries to be finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Cross

open Idealize.ShloMosaic Idealize.ShloMosaic.ValueIdx Idealize.ShloMosaic.Pipeline

/-- The cross layer, entry by entry: `x0[r, j] · (xl[r, ·] · w) + b[j] + xl[r, j]`. -/
def cross (xl x0 : FVec Ideal ⟨2, ![65536, 1024]⟩ .f32) (w b : FVec Ideal ⟨2, ![1024, 1]⟩ .f32) :
    FVec Ideal ⟨2, ![65536, 1024]⟩ .f32 :=
  fun i => x0 i * (∑ k : Fin 1024, xl (ix2 (i 0) k) * w (ix2 k (0 : Fin 1))) + b (ix2 (i 1) (0 : Fin 1)) + xl i

/-- Inserting the lane `k` into the row index `p` of a 1024 × 1024 block gives the entry `(p, k)`. -/
theorem lift_row (hred : (⟨2, ![1024, 1024]⟩ : Shape).Reduces [1] ⟨1, ![1024]⟩) (p k : Fin 1024) :
    hred.lift (ix1 p) k = ix2 p k := by
  funext a
  apply Fin.ext
  match a with
  | ⟨0, _⟩ => rfl
  | ⟨1, _⟩ => rfl

/-- A sum along the lanes of a block multiplied entrywise by one row laid over all its rows: at row `p` it is the
    row's product with that row, `Σ_k P[p, k] · R[0, k]`. -/
theorem lane_sum_row (P : FVec Ideal ⟨2, ![1024, 1024]⟩ .f32) (R : FVec Ideal ⟨2, ![1, 1024]⟩ .f32)
    (hsc : (⟨2, ![1, 1024]⟩ : Shape).ShapeCasts ⟨2, ![1, 1024]⟩)
    (hbc : (⟨2, ![1, 1024]⟩ : Shape).Broadcasts ⟨2, ![1024, 1024]⟩)
    (hred : (⟨2, ![1024, 1024]⟩ : Shape).Reduces [1] ⟨1, ![1024]⟩)
    (hφ : FKind.Formats .f32) (hacc : (0x00000000#32 : BitVec 32) = FKind.add.neutral .f32 hφ) (p : Fin 1024) :
    multiReduction (F := Ideal) .add [1] ⟨1, ![1024]⟩
        (mulf P (broadcastTo ⟨2, ![1024, 1024]⟩ (shapeCast ⟨2, ![1, 1024]⟩ R hsc) hbc)) 0x00000000#32 hred hφ hacc (ix1 p)
      = ∑ k : Fin 1024, P (ix2 p k) * R (ix2 (0 : Fin 1) k) := by
  refine (Ideal.multiReduction_add_single _ 0x00000000#32 hred hφ hacc (ix1 p)).trans ?_
  refine Finset.sum_congr rfl fun (k : Fin 1024) _ => ?_
  exact (congrArg (fun i => P i * broadcastTo ⟨2, ![1024, 1024]⟩ (shapeCast ⟨2, ![1, 1024]⟩ R hsc) hbc i)
      (lift_row hred p k)).trans
    (congrArg (P (ix2 p k) * ·) ((broadcastTo_1b_ab_apply _ hbc p k).trans (congrFun (shapeCast_self R hsc) _)))

/-- One entry of the layer from the pieces a block of rows holds: if the block's entries are the arrays' entries
    they were cut from — the `x0` entry and the `xl` entry at `i`, the whole `xl` row of `i`, the weight and the bias
    read along a row — then the block's `x0 · (row · weights) + bias + xl` at `y` is the layer at `i`. -/
theorem cross_of_block (xl x0 : FVec Ideal ⟨2, ![65536, 1024]⟩ .f32) (w b : FVec Ideal ⟨2, ![1024, 1]⟩ .f32)
    (P0 P1 : FVec Ideal ⟨2, ![1024, 1024]⟩ .f32) (P2 P3 : FVec Ideal ⟨2, ![1, 1024]⟩ .f32)
    (i : (⟨2, ![65536, 1024]⟩ : Shape).Idx) (y : (⟨2, ![1024, 1024]⟩ : Shape).Idx)
    (h0 : P0 y = x0 i) (h1 : P1 y = xl i)
    (hrow : ∀ k : Fin 1024, P1 (ix2 (y 0) k) = xl (ix2 (i 0) k))
    (hw : ∀ k : Fin 1024, P2 (ix2 (0 : Fin 1) k) = w (ix2 k (0 : Fin 1)))
    (hb : P3 (ix2 (0 : Fin 1) (y 1)) = b (ix2 (i 1) (0 : Fin 1))) :
    P0 y * (∑ k : Fin 1024, P1 (ix2 (y 0) k) * P2 (ix2 (0 : Fin 1) k)) + P3 (ix2 (0 : Fin 1) (y 1)) + P1 y
      = cross xl x0 w b i := by
  unfold cross
  rw [h0, h1, hb]
  congr 3
  exact Finset.sum_congr rfl fun k _ => by rw [hrow k, hw k]

end Cert.Cross

end
-- ==== Proof.RefIsCross.lean ====
/-
  The reference's result is the cross layer.

  The reference forms the column `s = xl · w` by one matrix product, lays it over the 1024 lanes, multiplies by `x0`,
  adds the bias (its column reshaped to a vector and laid over the rows) and adds `xl`. Read at an entry `(r, j)` the
  matrix product is `Σ_k xl[r, k] · w[k, 0]`, the laid-out column is its row's scalar, and the laid-out bias is
  `b[j, 0]`: the layer's own formula, term for term.
-/
import proofs.«137693_j31310311588329_1_alg».proof.Proof.Gen.ReferenceIdeal.Read
import proofs.«137693_j31310311588329_1_alg».proof.Proof.CrossSpec

noncomputable section

namespace Cert.Cross.Ref

open Cert.ReferenceIdeal Cert.ReferenceIdeal.Read Idealize.ShloMosaic Idealize.ShloMosaic.ValueIdx

/-- The reference's last stage, as a function of the four arguments, is the cross layer. -/
theorem ref_is_cross (x0 x1 : (⟨S65536x1024, .f32⟩ : BufTy).Contents (Elt Ideal))
    (x2 x3 : (⟨S1024x1, .f32⟩ : BufTy).Contents (Elt Ideal)) :
    val_main_v7 (F := Ideal) x0 x1 x2 x3 = Cert.Cross.cross x0 x1 x2 x3 := by
  funext i
  -- the matrix product's operands at entry (r, ·): row r of xl against the column w
  have el : ∀ k : Fin 1024, lidx_main_v0 (idx_main_v1 i) k = ix2 (i 0) k := fun k =>
    funext fun a => Fin.ext (by match a with | ⟨0, _⟩ => rfl | ⟨1, _⟩ => rfl)
  have er : ∀ k : Fin 1024, ridx_main_v0 (idx_main_v1 i) k = ix2 k (0 : Fin 1) := fun k =>
    funext fun a => Fin.ext (by match a with | ⟨0, _⟩ => rfl | ⟨1, _⟩ => rfl)
  -- the bias, reshaped to a vector and laid over the rows, read at (r, j): the column's entry (j, 0)
  have eb : idx_main_v3 (idx_main_v4 (idx_main_v5 i)) = ix2 (i 1) (0 : Fin 1) :=
    funext fun a => Fin.ext (by match a with | ⟨0, _⟩ => exact Nat.div_one _ | ⟨1, _⟩ => rfl)
  rw [val_main_v7_apply, val_main_v6_apply, val_main_v2_apply, val_main_v1_apply, val_main_v0_apply,
    val_main_v5_apply, val_main_v4_apply, val_main_v3_apply]
  simp only [el, er, eb]
  rfl

end Cert.Cross.Ref

end
-- ==== Proof.KernelValue.lean ====
/-
  What the kernel leaves in its result array is the cross layer.

  The kernel walks the 65536 rows in 64 blocks of 1024 rows. At block `t` it holds rows `1024·t … 1024·t + 1023` of
  `xl` and of `x0` whole, and the weight and the bias as rows (the columns `w`, `b` re-read along a row: the entry
  `(0, k)` of the row is the entry `(k, 0)` of the column). For each of its rows it sums the row of `xl` times the weight
  row along the lanes, and writes `x0 · (that sum) + bias + xl`. Row `p` of block `t` is row `1024·t + p` of the arrays,
  so what block `t` writes back is the cross layer read through block `t`; the 64 blocks tile the rows, so the array
  ends holding the cross layer everywhere.
-/
import proofs.«137693_j31310311588329_1_alg».proof.Proof.Gen.KernelIdeal.Value
import proofs.«137693_j31310311588329_1_alg».proof.Proof.CrossSpec
import Idealize.ShloMosaic.Lib.StableHlo.Run

set_option maxRecDepth 16384

noncomputable section

namespace Cert.Cross.Kern

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## One entry of a block -/

/-- What the body stores at entry `(p, q)` of its block, from the four blocks it loaded: the `x0` entry times the
    row's lane sum of `xl` against the weight row, plus the bias row's entry, plus the `xl` entry. -/
theorem block_entry (P0 P1 : FVec Ideal S1024x1024 .f32) (P2 P3 : FVec Ideal S1x1024 .f32) (p q : Fin 1024) :
    E4 (F := Ideal) P0 P1 P2 P3 (ix2 p q)
      = P0 (ix2 p q) * (∑ k : Fin 1024, P1 (ix2 p k) * P2 (ix2 (0 : Fin 1) k)) + P3 (ix2 (0 : Fin 1) q) + P1 (ix2 p q) := by
  have e0 : ix4_0 (ix2 p q) = ix2 p q := funext fun a => Fin.ext (by match a with | ⟨0, _⟩ => rfl | ⟨1, _⟩ => rfl)
  have e1 : ix4_1 (ix2 p q) = ix1 p := funext fun a => Fin.ext (by match a with | ⟨0, _⟩ => rfl)
  have e2 : ix4_2 (ix2 p q) = ix2 (0 : Fin 1) q := funext fun a => Fin.ext (by match a with | ⟨0, _⟩ => rfl | ⟨1, _⟩ => rfl)
  have e3 : ix4_3 (ix2 p q) = ix2 p q := funext fun a => Fin.ext (by match a with | ⟨0, _⟩ => rfl | ⟨1, _⟩ => rfl)
  dsimp only [E4]
  rw [e0, e1, e2, e3]
  exact congrArg (fun s => P0 (ix2 p q) * s + P3 (ix2 (0 : Fin 1) q) + P1 (ix2 p q))
    (Cert.Cross.lane_sum_row P1 P2 _ _ _ _ _ p)

/-! ## The weight and the bias as the region finds them -/

/-- A 1024 × 1 column re-read as a 1 × 1024 row: the row's entry `(0, k)` is the column's entry `(k, 0)`. -/
theorem col_as_row (x : FVec Ideal S1024x1 .f32) (h : S1024x1.ShapeCasts S1x1024) (k : Fin 1024) :
    shapeCast S1x1024 x h (ix2 (0 : Fin 1) k) = x (ix2 k (0 : Fin 1)) :=
  shapeCast_apply x h _ _ (by
    rw [Shape.rowMajor_val_two, Shape.rowMajor_val_two]
    show k.val * 1 + 0 = 0 * 1024 + k.val
    omega)

/-- The weight row the region reads is the weight column re-read as a row. -/
theorem wrow_eq (c : Dev nD) :
    (V m c main_v0 : S1x1024.Idx → EReal)
      = shapeCast S1x1024 (m ((c : Thread nD τ).loc main_arg2)) shapeCasts_S1024x1_S1x1024 := by
  dsimp only [Gen.V, Gen.hostOps0]; after_results; rfl

/-- The bias row the region reads is the bias column re-read as a row. -/
theorem brow_eq (c : Dev nD) :
    (V m c main_v1 : S1x1024.Idx → EReal)
      = shapeCast S1x1024 (m ((c : Thread nD τ).loc main_arg3)) shapeCasts_S1024x1_S1x1024 := by
  dsimp only [Gen.V, Gen.hostOps0]; after_results; rfl

/-! ## Where the blocks sit -/

/-- Block `t` of `xl`, of `x0` and of the result is the `t`-th block of 1024 rows, all lanes; the weight and bias rows
    are read whole at every point. Decided over the 64 points. -/
theorem idx_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_4.index t (0 : Fin 2) = t.val ∧ win0_4.index t (1 : Fin 2) = 0 :=
  (by decide +kernel : ∀ t : Fin grid0.N, _)

theorem idx_rows : ∀ t : Fin cfg0.N,
    win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The cross layer of the arrays as the region finds them. -/
abbrev layer (c : Dev nD) : FVec Ideal S65536x1024 .f32 :=
  Cert.Cross.cross (V m c main_arg0) (V m c main_arg1) (m ((c : Thread nD τ).loc main_arg2)) (m ((c : Thread nD τ).loc main_arg3))

/-- What the body leaves at an entry of its block, over any four loaded blocks. -/
theorem out_entry (x0 x1 : Vec Ideal S1024x1024 .f32) (x2 x3 : Vec Ideal S1x1024 .f32) (y : S1024x1024.Idx) :
    out0_4 x0 x1 x2 x3 y
      = x1 y * (∑ k : Fin 1024, x0 (ix2 (y 0) k) * x2 (ix2 (0 : Fin 1) k)) + x3 (ix2 (0 : Fin 1) (y 1)) + x0 y := by
  obtain ⟨p, q, rfl⟩ : ∃ (p q : Fin 1024), y = ix2 p q := ⟨y 0, y 1, eq_ix2 y⟩
  unfold out0_4
  refine (canon4_eq (F := Ideal) _ _ _ _ (ix2 p q)).trans ?_
  simp only [View.ld_unit_zero (S := S1024x1024) origin, View.ld_unit_zero (S := S1x1024) origin]
  exact block_entry _ _ _ _ p q

/-- What point `t` writes back is the cross layer read through block `t`. -/
theorem flushed4_eq (c : Dev nD) (t : Fin cfg0.N) :
    (dats m 0 c).flushed 4 t = ((cfg0.win 4).blk t).view.read (Elt Ideal) (layer m c) := by
  rw [Value.flushed4]
  funext j
  refine (out_entry (iblk m c 0 t) (iblk m c 1 t) (iblk m c 2 t) (iblk m c 3 t) j).trans ?_
  obtain ⟨a0, a1, b0, b1, o0, o1⟩ := idx_blocks t
  obtain ⟨w0, w1, c0, c1⟩ := idx_rows t
  have hj0 : (j 0).val < 1024 := (j 0).isLt
  have hj1 : (j 1).val < 1024 := (j 1).isLt
  show _ = layer m c (((cfg0.win 4).blk t).view.emb j)
  refine Cert.Cross.cross_of_block _ _ _ _ (iblk m c 1 t) (iblk m c 0 t) (iblk m c 2 t) (iblk m c 3 t)
    (((cfg0.win 4).blk t).view.emb j) j ?_ ?_ ?_ ?_ ?_
  · -- the x0 entry: block t of x0 sits where block t of the result sits
    show V m c main_arg1 (((cfg0.win 1).blk t).view.emb j) = V m c main_arg1 (((cfg0.win 4).blk t).view.emb j)
    refine congrArg _ (funext fun a => Fin.ext ?_)
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 1024 + 1 * (j 1).val = win0_4.index t (1 : Fin 2) * 1024 + 1 * (j 1).val; omega
  · -- the xl entry
    show V m c main_arg0 (((cfg0.win 0).blk t).view.emb j) = V m c main_arg0 (((cfg0.win 4).blk t).view.emb j)
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * (j 1).val = win0_4.index t (1 : Fin 2) * 1024 + 1 * (j 1).val; omega
  · -- the whole xl row of the entry: the block holds all 1024 lanes of its rows
    intro k
    show V m c main_arg0 (((cfg0.win 0).blk t).view.emb (ix2 (j 0) k))
      = V m c main_arg0 (ix2 ((((cfg0.win 4).blk t).view.emb j) 0) k)
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * k.val = k.val; omega
  · -- the weight row, read whole at every point, is the weight column along a row
    intro k
    have hemb : ((cfg0.win 2).blk t).view.emb (ix2 (0 : Fin 1) k) = ix2 (0 : Fin 1) k :=
      funext fun a => Fin.ext (by
        match a with
        | ⟨0, _⟩ => show win0_2.index t (0 : Fin 2) * 1 + 1 * 0 = 0; omega
        | ⟨1, _⟩ => show win0_2.index t (1 : Fin 2) * 1024 + 1 * k.val = k.val; omega)
    show V m c main_v0 (((cfg0.win 2).blk t).view.emb (ix2 (0 : Fin 1) k)) = _
    exact (congrArg (V m c main_v0) hemb).trans ((congrFun (wrow_eq m c) _).trans (col_as_row _ _ k))
  · -- the bias row likewise, at the entry's lane
    have hemb : ((cfg0.win 3).blk t).view.emb (ix2 (0 : Fin 1) (j 1)) = ix2 (0 : Fin 1) (j 1) :=
      funext fun a => Fin.ext (by
        match a with
        | ⟨0, _⟩ => show win0_3.index t (0 : Fin 2) * 1 + 1 * 0 = 0; omega
        | ⟨1, _⟩ => show win0_3.index t (1 : Fin 2) * 1024 + 1 * (j 1).val = (j 1).val; omega)
    have hlane : (((cfg0.win 4).blk t).view.emb j) 1 = j 1 :=
      Fin.ext (by show win0_4.index t (1 : Fin 2) * 1024 + 1 * (j 1).val = (j 1).val; omega)
    show V m c main_v1 (((cfg0.win 3).blk t).view.emb (ix2 (0 : Fin 1) (j 1))) = _
    rw [hlane]
    exact (congrArg (V m c main_v1) hemb).trans ((congrFun (brow_eq m c) _).trans (col_as_row _ _ (j 1)))

/-! ## From the blocks to the array -/

/-- An index of the result array is in block `t` iff each coordinate is in the block's range on its axis. -/
theorem mem_blk4 (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every entry of the result lies in a block some point writes back: row `r` is in block `r / 1024`. -/
theorem cover4 (i : S65536x1024.Idx) :
    ∃ t : Fin cfg0.N, (cfg0.win 4).flush t = true ∧ i ∈ ((cfg0.win 4).blk t).view.set := by
  have hi0 : (i 0).val < 65536 := (i 0).isLt
  have hi1 : (i 1).val < 1024 := (i 1).isLt
  have hN : grid0.N = 64 := N_0
  have hlt : (i 0).val / 1024 < cfg0.N := by show (i 0).val / 1024 < grid0.N; omega
  obtain ⟨-, -, -, -, o0, o1⟩ := idx_blocks ⟨(i 0).val / 1024, hlt⟩
  have ht : (⟨(i 0).val / 1024, hlt⟩ : Fin cfg0.N).val = (i 0).val / 1024 := rfl
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    omega
  | ⟨1, _⟩ =>
    show win0_4.index ⟨(i 0).val / 1024, hlt⟩ (1 : Fin 2) * 1024 ≤ (i 1).val
      ∧ (i 1).val < win0_4.index ⟨(i 0).val / 1024, hlt⟩ (1 : Fin 2) * 1024 + 1024
    omega

/-- The result array after the run is the cross layer of the arguments as launched. -/
theorem final4 (c : Dev nD) :
    (dats m 0 c).arrAt 4 cfg0.N
      = Cert.Cross.cross (m ((c : Thread nD τ).loc main_arg0)) (m ((c : Thread nD τ).loc main_arg1))
          (m ((c : Thread nD τ).loc main_arg2)) (m ((c : Thread nD τ).loc main_arg3)) := by
  rw [(dats m 0 c).arrAt_eq_of_cover 4 (layer m c) (fun t _ => flushed4_eq m c t) cover4]
  show Cert.Cross.cross (V m c main_arg0) (V m c main_arg1) _ _ = _
  rw [V_main_arg0 m c, V_main_arg1 m c]

/-- The kernel's run: every fair execution ends with the result array at the cross layer of the arguments, the
    arguments unchanged. -/
theorem run : θ_run defs (onTc (τ := τ) (main (F := Ideal))) ⟨m, fun _ => 0, ρ⟩ fun r => ∀ c : Dev nD,
      r.2.mem ((c : Thread nD τ).loc main_v2)
        = Cert.Cross.cross (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Value.run_blocks m ρ)

end Cert.Cross.Kern

end
-- ==== Proof.lean ====
/-
  A cross-interaction layer over a batch: for 65536 rows of width 1024, a weight column `w` and a bias column `b`,

      out[r, j] = x0[r, j] · (Σ_k xl[r, k] · w[k, 0]) + b[j, 0] + xl[r, j].

  The kernel takes the rows in 64 blocks of 1024; per block it multiplies each `xl` row entrywise by the weight laid
  out as a row, sums along the lanes, and combines the row's scalar with `x0`, the bias row and `xl`. The reference
  takes the same scalar as one matrix product `xl · w` and combines in the same order. Over the extended reals both
  scalars are the one finite sum `Σ_k xl[r, k] · w[k, 0]` (a lane sum from zero and a matrix product are each that
  sum), and the remaining operations agree term for term, so the two results are equal entry by entry with no
  appeal to finiteness of the inputs.

  `CrossSpec` states the layer and the lane-sum fact; `RefIsCross` reads the reference's stages as the layer;
  `KernelValue` reads one block's stores as the layer through the block and tiles the 64 blocks into the array.
  The idealization rewrote nothing, so the preservation claim has no conjunct.
-/
import proofs.«137693_j31310311588329_1_alg».proof.Defs
import proofs.«137693_j31310311588329_1_alg».proof.Proof.Gen.Kernel
import proofs.«137693_j31310311588329_1_alg».proof.Proof.Gen.Kernel.Skeleton
import proofs.«137693_j31310311588329_1_alg».proof.Proof.Gen.Kernel.Launch
import proofs.«137693_j31310311588329_1_alg».proof.Proof.Gen.Kernel.Points
import proofs.«137693_j31310311588329_1_alg».proof.Proof.Gen.Kernel.Frame
import proofs.«137693_j31310311588329_1_alg».proof.Proof.Gen.KernelIdeal
import proofs.«137693_j31310311588329_1_alg».proof.Proof.Gen.KernelIdeal.Skeleton
import proofs.«137693_j31310311588329_1_alg».proof.Proof.Gen.KernelIdeal.Launch
import proofs.«137693_j31310311588329_1_alg».proof.Proof.Gen.KernelIdeal.Points
import proofs.«137693_j31310311588329_1_alg».proof.Proof.Gen.KernelIdeal.Frame
import proofs.«137693_j31310311588329_1_alg».proof.Proof.Gen.ReferenceIdeal
import proofs.«137693_j31310311588329_1_alg».proof.Proof.Gen.Pre_finite_inputs
import proofs.«137693_j31310311588329_1_alg».proof.Proof.Gen.KernelIdeal.Value
import proofs.«137693_j31310311588329_1_alg».proof.Proof.Gen.ReferenceIdeal.Run
import proofs.«137693_j31310311588329_1_alg».proof.Proof.Gen.ReferenceIdeal.Read
import proofs.«137693_j31310311588329_1_alg».proof.Proof.CrossSpec
import proofs.«137693_j31310311588329_1_alg».proof.Proof.RefIsCross
import proofs.«137693_j31310311588329_1_alg».proof.Proof.KernelValue
import Idealize.ShloMosaic.Adequacy
import Idealize.ShloMosaic.Init

noncomputable section

namespace Cert.Proof

open Idealize.ShloMosaic Idealize.ShloMosaic.TcCoe Idealize.SL.Sem

/-- The reference runs and leaves its arguments as they were: its run with the result dropped. -/
theorem frame_ref [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end with the cross layer of the arguments in their result: the kernel by its blocks, the
    reference by its stages; the arguments agree, so the results do. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.Cross.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Cross.Ref.ref_is_cross,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref,
    trivial,
    algebraic⟩

end Cert.Proof

end
